-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x256 : Shape := ⟨2, ![256, 256]⟩
abbrev S256 : Shape := ⟨1, ![256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_arg14 : FVec F S256 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  main_v73

def fn_part3 {F : FTy → Type} [FloatOps F] (main_arg11 : FVec F S256 .f32) (main_arg12 : FVec F S256x256 .f32) (main_arg13 : FVec F S256x256 .f32) (main_arg14 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_v63 main_v67

def fn_part2 {F : FTy → Type} [FloatOps F] (main_arg7 : FVec F S256x256 .f32) (main_arg8 : FVec F S256 .f32) (main_arg9 : FVec F S256x256 .f32) (main_arg10 : FVec F S256x256 .f32) (main_arg11 : FVec F S256 .f32) (main_arg12 : FVec F S256x256 .f32) (main_arg13 : FVec F S256x256 .f32) (main_arg14 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_v48 main_v49 main_v50

def fn_part1 {F : FTy → Type} [FloatOps F] (main_arg4 : FVec F S256x256 .f32) (main_arg5 : FVec F S256 .f32) (main_arg6 : FVec F S256x256 .f32) (main_arg7 : FVec F S256x256 .f32) (main_arg8 : FVec F S256 .f32) (main_arg9 : FVec F S256x256 .f32) (main_arg10 : FVec F S256x256 .f32) (main_arg11 : FVec F S256 .f32) (main_arg12 : FVec F S256x256 .f32) (main_arg13 : FVec F S256x256 .f32) (main_arg14 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S65536x256 .f32) (main_arg1 : FVec F S65536x256 .f32) (main_arg2 : FVec F S65536x256 .f32) (main_arg3 : FVec F S256x256 .f32) (main_arg4 : FVec F S256x256 .f32) (main_arg5 : FVec F S256 .f32) (main_arg6 : FVec F S256x256 .f32) (main_arg7 : FVec F S256x256 .f32) (main_arg8 : FVec F S256 .f32) (main_arg9 : FVec F S256x256 .f32) (main_arg10 : FVec F S256x256 .f32) (main_arg11 : FVec F S256 .f32) (main_arg12 : FVec F S256x256 .f32) (main_arg13 : FVec F S256x256 .f32) (main_arg14 : FVec F S256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S65536x256 : Shape := ⟨2, ![65536, 256]⟩
abbrev S256x256 : Shape := ⟨2, ![256, 256]⟩
abbrev S256 : Shape := ⟨1, ![256]⟩
abbrev S256x1024 : Shape := ⟨2, ![256, 1024]⟩
abbrev S1024 : Shape := ⟨1, ![1024]⟩
abbrev S512x256 : Shape := ⟨2, ![512, 256]⟩
abbrev S512x1024 : Shape := ⟨2, ![512, 1024]⟩
abbrev S1x1024 : Shape := ⟨2, ![1, 1024]⟩

abbrev nBuf : Space → Nat
  | .hbm => 20
  | .vmem => 13
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256x256, .f32⟩
  | .hbm, ⟨14, _⟩ => ⟨S256, .f32⟩
  | .hbm, ⟨15, _⟩ => ⟨S256x1024, .f32⟩
  | .hbm, ⟨16, _⟩ => ⟨S256x1024, .f32⟩
  | .hbm, ⟨17, _⟩ => ⟨S1024, .f32⟩
  | .hbm, ⟨18, _⟩ => ⟨S65536x256, .f32⟩
  | .hbm, ⟨19, _⟩ => ⟨S65536x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S256x1024, .f32⟩
  | .local _ .vmem, ⟨7, _⟩ => ⟨S256x1024, .f32⟩
  | .local _ .vmem, ⟨8, _⟩ => ⟨S1024, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3_0 : Ref sig .tc := ⟨.hbm, 18, rfl⟩
abbrev main_v3_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S256x256_S256x256_S256x256_S256x256_S256x1024_d1 : Shape.Concatenates [S256x256, S256x256, S256x256, S256x256] S256x1024 1
  concatenates_S256_S256_S256_S256_S1024_d0 : Shape.Concatenates [S256, S256, S256, S256] S1024 0
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  shapeCasts_S1x1024_S1x1024 : S1x1024.ShapeCasts S1x1024
  broadcasts_S1x1024_S512x1024 : S1x1024.Broadcasts S512x1024
  slices_S512x1024_o0_0_S512x256 : S512x1024.Slices ![0, 0] S512x256
  slices_S512x1024_o0_256_S512x256 : S512x1024.Slices ![0, 256] S512x256
  slices_S512x1024_o0_512_S512x256 : S512x1024.Slices ![0, 512] S512x256
  slices_S512x1024_o0_768_S512x256 : S512x1024.Slices ![0, 768] S512x256
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S65536x256.size a
  hwx0_0 : ∀ i : grid0.Coords, EltTy.bits .f32 = 32 ∨ (Rect.block (s := S65536x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S65536x256.size a
  hwx0_1 : ∀ i : grid0.Coords, EltTy.bits .f32 = 32 ∨ (Rect.block (s := S65536x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S65536x256.size a
  hwx0_2 : ∀ i : grid0.Coords, EltTy.bits .f32 = 32 ∨ (Rect.block (s := S65536x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .f32 = 32 ∨ (Rect.block (s := S256x1024) S256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .f32 = 32 ∨ (Rect.block (s := S256x1024) S256x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S65536x256.size a
  hwx0_6 : ∀ i : grid0.Coords, EltTy.bits .f32 = 32 ∨ (Rect.block (s := S65536x256) S512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S65536x256.size a
  hwx0_7 : ∀ i : grid0.Coords, EltTy.bits .f32 = 32 ∨ (Rect.block (s := S65536x256) S512x256.size (cc0_transform_7 i) (hinb0_7 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S512x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S512x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x256 : Shape := ⟨2, ![256, 256]⟩
abbrev S256 : Shape := ⟨1, ![256]⟩
abbrev S256x1024 : Shape := ⟨2, ![256, 1024]⟩
abbrev S1024 : Shape := ⟨1, ![1024]⟩
abbrev S65536x1024 : Shape := ⟨2, ![65536, 1024]⟩
abbrev S1x1024 : Shape := ⟨2, ![1, 1024]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256x256, .f32⟩
  | .hbm, ⟨14, _⟩ => ⟨S256, .f32⟩
  | .hbm, ⟨15, _⟩ => ⟨S256x1024, .f32⟩
  | .hbm, ⟨16, _⟩ => ⟨S256x1024, .f32⟩
  | .hbm, ⟨17, _⟩ => ⟨S1024, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S1x1024, .f32⟩
  | .hbm, ⟨22, _⟩ => ⟨S65536x1024, .f32⟩
  | .hbm, ⟨23, _⟩ => ⟨S65536x1024, .f32⟩
  | .hbm, ⟨24, _⟩ => ⟨S65536x256, .f32⟩
  | .hbm, ⟨25, _⟩ => ⟨S65536x256, .f32⟩
  | .hbm, ⟨26, _⟩ => ⟨S65536x256, .f32⟩
  | .hbm, ⟨27, _⟩ => ⟨S65536x256, .f32⟩
  | .hbm, ⟨28, _⟩ => ⟨S65536x256, .f32⟩
  | .hbm, ⟨29, _⟩ => ⟨S65536x256, .f32⟩
  | .hbm, ⟨30, _⟩ => ⟨S_, .f32⟩
  | .hbm, ⟨31, _⟩ => ⟨S65536x256, .f32⟩
  | .hbm, ⟨32, _⟩ => ⟨S65536x256, .f32⟩
  | .hbm, ⟨33, _⟩ => ⟨S_, .f32⟩
  | .hbm, ⟨34, _⟩ => ⟨S65536x256, .f32⟩
  | .hbm, ⟨35, _⟩ => ⟨S65536x256, .f32⟩
  | .hbm, ⟨36, _⟩ => ⟨S65536x256, .f32⟩
  | .hbm, ⟨37, _⟩ => ⟨S65536x256, .f32⟩
  | .hbm, ⟨38, _⟩ => ⟨S_, .f32⟩
  | .hbm, ⟨39, _⟩ => ⟨S65536x256, .f32⟩
  | .hbm, ⟨40, _⟩ => ⟨S65536x256, .f32⟩
  | .hbm, ⟨41, _⟩ => ⟨S_, .f32⟩
  | .hbm, ⟨42, _⟩ => ⟨S65536x256, .f32⟩
  | .hbm, ⟨43, _⟩ => ⟨S65536x256, .f32⟩
  | .hbm, ⟨44, _⟩ => ⟨S65536x256, .f32⟩
  | .hbm, ⟨45, _⟩ => ⟨S65536x256, .f32⟩
  | .hbm, ⟨46, _⟩ => ⟨S_, .f32⟩
  | .hbm, ⟨47, _⟩ => ⟨S65536x256, .f32⟩
  | .hbm, ⟨48, _⟩ => ⟨S65536x256, .f32⟩
  | .hbm, ⟨49, _⟩ => ⟨S_, .f32⟩
  | .hbm, ⟨50, _⟩ => ⟨S65536x256, .f32⟩
  | .hbm, ⟨51, _⟩ => ⟨S65536x256, .f32⟩
  | .hbm, ⟨52, _⟩ => ⟨S65536x256, .f32⟩
  | .hbm, ⟨53, _⟩ => ⟨S65536x256, .f32⟩
  | .hbm, ⟨54, _⟩ => ⟨S65536x256, .f32⟩
  | .hbm, ⟨55, _⟩ => ⟨S65536x256, .f32⟩
  | .hbm, ⟨56, _⟩ => ⟨S65536x256, .f32⟩
  | .hbm, ⟨57, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  concatenates_S256x256_S256x256_S256x256_S256x256_S256x1024_d1 : Shape.Concatenates [S256x256, S256x256, S256x256, S256x256] S256x1024 1
  concatenates_S256_S256_S256_S256_S1024_d0 : Shape.Concatenates [S256, S256, S256, S256] S1024 0
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  slices_S65536x1024_S65536x256_0_0 : S65536x1024.Slices ![0, 0] S65536x256
  slices_S65536x1024_S65536x256_0_256 : S65536x1024.Slices ![0, 256] S65536x256
  slices_S65536x1024_S65536x256_0_512 : S65536x1024.Slices ![0, 512] S65536x256
  slices_S65536x1024_S65536x256_0_768 : S65536x1024.Slices ![0, 768] S65536x256
  bcast_S_S65536x256 : S_.BroadcastsInDim S65536x256 (![] : Fin 0 → Fin S65536x256.rank)
  dot_S65536x256_S256x1024_S65536x1024_1_0_0_1_n_n_wf : DotDims.WF S65536x256 S256x1024 S65536x1024 [1] [0] [0] [1] [] []

variable [Facts₀]

def dot_S65536x256_S256x1024_S65536x1024_1_0_0_1_n_n : DotDims S65536x256 S256x1024 S65536x1024 where
  lhsContracting := [1]
  rhsContracting := [0]
  lhsNonContracting := [0]
  rhsNonContracting := [1]
  lhsBatch := []
  rhsBatch := []
  wf := dot_S65536x256_S256x1024_S65536x1024_1_0_0_1_n_n_wf

class Facts : Prop extends Facts₀ where

variable [Facts]
-- ==== Proof.BitsFrame.lean ====
/-
  The frame of the LSTM-cell program as printed, at any float family.

  @main joins the four input-to-hidden matrices, the four hidden-to-hidden matrices and the four bias rows by three
  concatenations, then runs one pipelined region over 128 row blocks of 512 rows.  Window 0, 1, 2 are the 512-row
  blocks of x, h_prev and c_prev; windows 3, 4, 5 are the two joined 256×1024 weight matrices and the joined 1024
  bias row, whole and fetched once; windows 6 and 7 are the 512-row blocks of the new hidden state and the new cell
  state.  The body reads the six input blocks whole and stores each output block whole, so after the body each
  output's staging block is one function of the six input blocks (`hBlock`, `cBlock`), and every argument array is
  left as it was: the concatenations write only their own results, and the region writes only the two results.
-/
import proofs.«122981_j1090921693307_1_alg».proof.Proof.Gen.Kernel.Launch
import proofs.«122981_j1090921693307_1_alg».proof.Proof.Gen.Kernel.Skeleton
import proofs.«122981_j1090921693307_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the three concatenations. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- @main is the three concatenations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- The three concatenations write only their own results: every other buffer is as launched. -/
theorem V_of_ne (c : Dev nD) (r : Ref sig .tc) (h0 : r ≠ main_v0) (h1 : r ≠ main_v1) (h2 : r ≠ main_v2) :
    V m c r = m ((c : Thread nD τ).loc r) :=
  StableHlo.after_of_forall_not_mem (b := Proc.devRef .tc r) _ _ (List.forall_iff_forall_mem.mp (by
    simp only [hostOps0, List.flatten_cons, List.flatten_nil, List.append_nil, List.cons_append,
      List.nil_append, List.Forall, StableHlo.nary_writes, Finset.mem_singleton]
    exact ⟨StableHlo.devRef_ne_of_ne h0, StableHlo.devRef_ne_of_ne h1, StableHlo.devRef_ne_of_ne h2⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The frame claim's post from the frame run's -/

/-- For any proof data over the region-entry arrays, a final state in which every window's array is what the proof
    data say and every other buffer is as the region found it has all fifteen argument arrays as launched: x, h_prev
    and c_prev are input windows (their arrays are never written), the twelve parameter arrays are no window's array,
    and the concatenations wrote none of them. -/
theorem kept_args (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats 0 c).arrAt_in 0 rfl _).trans ((hA c 0).trans (V_of_ne m c main_arg0 (by decide) (by decide) (by decide)))),
   ((h c).1 1).trans (((dats 0 c).arrAt_in 1 rfl _).trans ((hA c 1).trans (V_of_ne m c main_arg1 (by decide) (by decide) (by decide)))),
   ((h c).1 2).trans (((dats 0 c).arrAt_in 2 rfl _).trans ((hA c 2).trans (V_of_ne m c main_arg2 (by decide) (by decide) (by decide)))),
   ((h c).2 main_arg3 (Pipeline.mem_restRefs_of main_arg3 (by decide) (by decide))).trans (V_of_ne m c main_arg3 (by decide) (by decide) (by decide)),
   ((h c).2 main_arg4 (Pipeline.mem_restRefs_of main_arg4 (by decide) (by decide))).trans (V_of_ne m c main_arg4 (by decide) (by decide) (by decide)),
   ((h c).2 main_arg5 (Pipeline.mem_restRefs_of main_arg5 (by decide) (by decide))).trans (V_of_ne m c main_arg5 (by decide) (by decide) (by decide)),
   ((h c).2 main_arg6 (Pipeline.mem_restRefs_of main_arg6 (by decide) (by decide))).trans (V_of_ne m c main_arg6 (by decide) (by decide) (by decide)),
   ((h c).2 main_arg7 (Pipeline.mem_restRefs_of main_arg7 (by decide) (by decide))).trans (V_of_ne m c main_arg7 (by decide) (by decide) (by decide)),
   ((h c).2 main_arg8 (Pipeline.mem_restRefs_of main_arg8 (by decide) (by decide))).trans (V_of_ne m c main_arg8 (by decide) (by decide) (by decide)),
   ((h c).2 main_arg9 (Pipeline.mem_restRefs_of main_arg9 (by decide) (by decide))).trans (V_of_ne m c main_arg9 (by decide) (by decide) (by decide)),
   ((h c).2 main_arg10 (Pipeline.mem_restRefs_of main_arg10 (by decide) (by decide))).trans (V_of_ne m c main_arg10 (by decide) (by decide) (by decide)),
   ((h c).2 main_arg11 (Pipeline.mem_restRefs_of main_arg11 (by decide) (by decide))).trans (V_of_ne m c main_arg11 (by decide) (by decide) (by decide)),
   ((h c).2 main_arg12 (Pipeline.mem_restRefs_of main_arg12 (by decide) (by decide))).trans (V_of_ne m c main_arg12 (by decide) (by decide) (by decide)),
   ((h c).2 main_arg13 (Pipeline.mem_restRefs_of main_arg13 (by decide) (by decide))).trans (V_of_ne m c main_arg13 (by decide) (by decide) (by decide)),
   ((h c).2 main_arg14 (Pipeline.mem_restRefs_of main_arg14 (by decide) (by decide))).trans (V_of_ne m c main_arg14 (by decide) (by decide) (by decide))⟩

/-- The frame claim's post from a run to the pipeline's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => kept_args m dats hA r h c) h

/-! ## The body's accesses: each buffer whole -/

abbrev rAct : Rect S512x256 := Rect.unit (s := S512x256) ![0, 0] S512x256.size inb_S512x256_S512x256_0_0
abbrev rWgt : Rect S256x1024 := Rect.unit (s := S256x1024) ![0, 0] S256x1024.size inb_S256x1024_S256x1024_0_0
abbrev rBias : Rect S1024 := Rect.unit (s := S1024) ![0] S1024.size inb_S1024_S1024_0

/-! ## What the body leaves in the two output blocks -/

/-- The new hidden-state block from the six input blocks (x, h_prev, c_prev rows; the joined weights; the joined bias). -/
def hBlock (x0 x1 x2 : Vec F S512x256 .f32) (x3 x4 : Vec F S256x1024 .f32) (x5 : Vec F S1024 .f32) : Vec F S512x256 .f32 :=
  View.canon [⟨rAct, k0_pay3 (View.ld x0 rAct) (View.ld x1 rAct) (View.ld x3 rWgt) (View.ld x4 rWgt) (View.ld x5 rBias) (View.ld x2 rAct)⟩]

/-- The new cell-state block from the six input blocks. -/
def cBlock (x0 x1 x2 : Vec F S512x256 .f32) (x3 x4 : Vec F S256x1024 .f32) (x5 : Vec F S1024 .f32) : Vec F S512x256 .f32 :=
  View.canon [⟨rAct, k0_pay2 (View.ld x0 rAct) (View.ld x1 rAct) (View.ld x3 rWgt) (View.ld x4 rWgt) (View.ld x5 rBias) (View.ld x2 rAct)⟩]

/-- One whole-block store covers the block. -/
theorem cover_act (p0 : Vec F S512x256 .f32) (y : S512x256.Idx) :
    ∃ pc ∈ ([⟨rAct, p0⟩] : List (View.Piece (Elt F) S512x256 .f32)), y ∈ pc.1.set :=
  View.cover_of_tiled [⟨rAct, p0⟩] S512x256.size (by rfl) y

/-! ## The body's triple -/

set_option maxHeartbeats 2000000 in
/-- The body on whole staging buffers, the six inputs at contents `x0 … x5` and the two outputs at anything, ends with
    the inputs as they were and the outputs at `hBlock` and `cBlock` of the inputs. -/
theorem sound_kernel (c : Dev nD) (E : Set ℕ) (i : grid0.Coords)
    (arg1 : Memref sig .tc .vmem S512x256 .f32) (harg1 : arg1.IsWhole) (arg2 : Memref sig .tc .vmem S512x256 .f32) (harg2 : arg2.IsWhole)
    (arg3 : Memref sig .tc .vmem S512x256 .f32) (harg3 : arg3.IsWhole) (arg4 : Memref sig .tc .vmem S256x1024 .f32) (harg4 : arg4.IsWhole)
    (arg5 : Memref sig .tc .vmem S256x1024 .f32) (harg5 : arg5.IsWhole) (arg6 : Memref sig .tc .vmem S1024 .f32) (harg6 : arg6.IsWhole)
    (arg7 : Memref sig .tc .vmem S512x256 .f32) (harg7 : arg7.IsWhole) (arg8 : Memref sig .tc .vmem S512x256 .f32) (harg8 : arg8.IsWhole)
    (x0 x1 x2 : Vec F S512x256 .f32) (x3 x4 : Vec F S256x1024 .f32) (x5 : Vec F S1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (hBlock x0 x1 x2 x3 x4 x5) ∗ owns (c : Thread nD τ) arg8 fullShare (cBlock x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_act _)
  iexists _; isplitr
  swap; · iexact H7
  ipureintro
  exact View.read_writes_eq_canon _ _ _ (cover_act _)

/-! ## The pipeline's proof data -/

/-- The proof data on core `c`: the arrays as the region finds them; after the body at point `t` each input buffer at
    its block and the two output buffers at `hBlock` / `cBlock` of the six input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hBlock (iblk m c 0 t) (iblk m c 1 t) (iblk m c 2 t) (iblk m c 3 t) (iblk m c 4 t) (iblk m c 5 t)
    | ⟨7, _⟩ => cBlock (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = hBlock (iblk m c 0 t) (iblk m c 1 t) (iblk m c 2 t) (iblk m c 3 t) (iblk m c 4 t) (iblk m c 5 t) := by dsimp only [dats]
theorem after0_7 (c : Dev nD) (t : Fin cfg0.N) : (dats m 0 c).after 7 t
    = cBlock (iblk m c 0 t) (iblk m c 1 t) (iblk m c 2 t) (iblk m c 3 t) (iblk m c 4 t) (iblk m c 5 t) := by dsimp only [dats]

/-- An input window's current staging buffer holds its block at every point, whether the pipeline fetched it there or
    kept it from the point before (the block index has then not moved; the three 512-row windows are fetched at every
    point, the weights and the bias at the first point only). -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the input buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state each window's array is what the proof
    data compute and every other unscoped buffer is as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Frm

end
-- ==== Proof.IdealFrame.lean ====
/-
  The frame of the idealized LSTM-cell program, at any float family.

  @main joins the four input-to-hidden matrices, the four hidden-to-hidden matrices and the four bias rows by three
  concatenations, then runs one pipelined region over 128 row blocks of 512 rows.  Window 0, 1, 2 are the 512-row
  blocks of x, h_prev and c_prev; windows 3, 4, 5 are the two joined 256×1024 weight matrices and the joined 1024
  bias row, whole and fetched once; windows 6 and 7 are the 512-row blocks of the new hidden state and the new cell
  state.  The body reads the six input blocks whole and stores each output block whole, so after the body each
  output's staging block is one function of the six input blocks (`hBlock`, `cBlock`), and every argument array is
  left as it was: the concatenations write only their own results, and the region writes only the two results.
-/
import proofs.«122981_j1090921693307_1_alg».proof.Proof.Gen.KernelIdeal.Launch
import proofs.«122981_j1090921693307_1_alg».proof.Proof.Gen.KernelIdeal.Skeleton
import proofs.«122981_j1090921693307_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the three concatenations. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- @main is the three concatenations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- The three concatenations write only their own results: every other buffer is as launched. -/
theorem V_of_ne (c : Dev nD) (r : Ref sig .tc) (h0 : r ≠ main_v0) (h1 : r ≠ main_v1) (h2 : r ≠ main_v2) :
    V m c r = m ((c : Thread nD τ).loc r) :=
  StableHlo.after_of_forall_not_mem (b := Proc.devRef .tc r) _ _ (List.forall_iff_forall_mem.mp (by
    simp only [hostOps0, List.flatten_cons, List.flatten_nil, List.append_nil, List.cons_append,
      List.nil_append, List.Forall, StableHlo.nary_writes, Finset.mem_singleton]
    exact ⟨StableHlo.devRef_ne_of_ne h0, StableHlo.devRef_ne_of_ne h1, StableHlo.devRef_ne_of_ne h2⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The frame claim's post from the frame run's -/

/-- For any proof data over the region-entry arrays, a final state in which every window's array is what the proof
    data say and every other buffer is as the region found it has all fifteen argument arrays as launched: x, h_prev
    and c_prev are input windows (their arrays are never written), the twelve parameter arrays are no window's array,
    and the concatenations wrote none of them. -/
theorem kept_args (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats 0 c).arrAt_in 0 rfl _).trans ((hA c 0).trans (V_of_ne m c main_arg0 (by decide) (by decide) (by decide)))),
   ((h c).1 1).trans (((dats 0 c).arrAt_in 1 rfl _).trans ((hA c 1).trans (V_of_ne m c main_arg1 (by decide) (by decide) (by decide)))),
   ((h c).1 2).trans (((dats 0 c).arrAt_in 2 rfl _).trans ((hA c 2).trans (V_of_ne m c main_arg2 (by decide) (by decide) (by decide)))),
   ((h c).2 main_arg3 (Pipeline.mem_restRefs_of main_arg3 (by decide) (by decide))).trans (V_of_ne m c main_arg3 (by decide) (by decide) (by decide)),
   ((h c).2 main_arg4 (Pipeline.mem_restRefs_of main_arg4 (by decide) (by decide))).trans (V_of_ne m c main_arg4 (by decide) (by decide) (by decide)),
   ((h c).2 main_arg5 (Pipeline.mem_restRefs_of main_arg5 (by decide) (by decide))).trans (V_of_ne m c main_arg5 (by decide) (by decide) (by decide)),
   ((h c).2 main_arg6 (Pipeline.mem_restRefs_of main_arg6 (by decide) (by decide))).trans (V_of_ne m c main_arg6 (by decide) (by decide) (by decide)),
   ((h c).2 main_arg7 (Pipeline.mem_restRefs_of main_arg7 (by decide) (by decide))).trans (V_of_ne m c main_arg7 (by decide) (by decide) (by decide)),
   ((h c).2 main_arg8 (Pipeline.mem_restRefs_of main_arg8 (by decide) (by decide))).trans (V_of_ne m c main_arg8 (by decide) (by decide) (by decide)),
   ((h c).2 main_arg9 (Pipeline.mem_restRefs_of main_arg9 (by decide) (by decide))).trans (V_of_ne m c main_arg9 (by decide) (by decide) (by decide)),
   ((h c).2 main_arg10 (Pipeline.mem_restRefs_of main_arg10 (by decide) (by decide))).trans (V_of_ne m c main_arg10 (by decide) (by decide) (by decide)),
   ((h c).2 main_arg11 (Pipeline.mem_restRefs_of main_arg11 (by decide) (by decide))).trans (V_of_ne m c main_arg11 (by decide) (by decide) (by decide)),
   ((h c).2 main_arg12 (Pipeline.mem_restRefs_of main_arg12 (by decide) (by decide))).trans (V_of_ne m c main_arg12 (by decide) (by decide) (by decide)),
   ((h c).2 main_arg13 (Pipeline.mem_restRefs_of main_arg13 (by decide) (by decide))).trans (V_of_ne m c main_arg13 (by decide) (by decide) (by decide)),
   ((h c).2 main_arg14 (Pipeline.mem_restRefs_of main_arg14 (by decide) (by decide))).trans (V_of_ne m c main_arg14 (by decide) (by decide) (by decide))⟩

/-- The frame claim's post from a run to the pipeline's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => kept_args m dats hA r h c) h

/-! ## The body's accesses: each buffer whole -/

abbrev rAct : Rect S512x256 := Rect.unit (s := S512x256) ![0, 0] S512x256.size inb_S512x256_S512x256_0_0
abbrev rWgt : Rect S256x1024 := Rect.unit (s := S256x1024) ![0, 0] S256x1024.size inb_S256x1024_S256x1024_0_0
abbrev rBias : Rect S1024 := Rect.unit (s := S1024) ![0] S1024.size inb_S1024_S1024_0

/-! ## What the body leaves in the two output blocks -/

/-- The new hidden-state block from the six input blocks (x, h_prev, c_prev rows; the joined weights; the joined bias). -/
def hBlock (x0 x1 x2 : Vec F S512x256 .f32) (x3 x4 : Vec F S256x1024 .f32) (x5 : Vec F S1024 .f32) : Vec F S512x256 .f32 :=
  View.canon [⟨rAct, k0_pay3 (View.ld x0 rAct) (View.ld x1 rAct) (View.ld x3 rWgt) (View.ld x4 rWgt) (View.ld x5 rBias) (View.ld x2 rAct)⟩]

/-- The new cell-state block from the six input blocks. -/
def cBlock (x0 x1 x2 : Vec F S512x256 .f32) (x3 x4 : Vec F S256x1024 .f32) (x5 : Vec F S1024 .f32) : Vec F S512x256 .f32 :=
  View.canon [⟨rAct, k0_pay2 (View.ld x0 rAct) (View.ld x1 rAct) (View.ld x3 rWgt) (View.ld x4 rWgt) (View.ld x5 rBias) (View.ld x2 rAct)⟩]

/-- One whole-block store covers the block. -/
theorem cover_act (p0 : Vec F S512x256 .f32) (y : S512x256.Idx) :
    ∃ pc ∈ ([⟨rAct, p0⟩] : List (View.Piece (Elt F) S512x256 .f32)), y ∈ pc.1.set :=
  View.cover_of_tiled [⟨rAct, p0⟩] S512x256.size (by rfl) y

/-! ## The body's triple -/

set_option maxHeartbeats 2000000 in
/-- The body on whole staging buffers, the six inputs at contents `x0 … x5` and the two outputs at anything, ends with
    the inputs as they were and the outputs at `hBlock` and `cBlock` of the inputs. -/
theorem sound_kernel (c : Dev nD) (E : Set ℕ) (i : grid0.Coords)
    (arg1 : Memref sig .tc .vmem S512x256 .f32) (harg1 : arg1.IsWhole) (arg2 : Memref sig .tc .vmem S512x256 .f32) (harg2 : arg2.IsWhole)
    (arg3 : Memref sig .tc .vmem S512x256 .f32) (harg3 : arg3.IsWhole) (arg4 : Memref sig .tc .vmem S256x1024 .f32) (harg4 : arg4.IsWhole)
    (arg5 : Memref sig .tc .vmem S256x1024 .f32) (harg5 : arg5.IsWhole) (arg6 : Memref sig .tc .vmem S1024 .f32) (harg6 : arg6.IsWhole)
    (arg7 : Memref sig .tc .vmem S512x256 .f32) (harg7 : arg7.IsWhole) (arg8 : Memref sig .tc .vmem S512x256 .f32) (harg8 : arg8.IsWhole)
    (x0 x1 x2 : Vec F S512x256 .f32) (x3 x4 : Vec F S256x1024 .f32) (x5 : Vec F S1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (hBlock x0 x1 x2 x3 x4 x5) ∗ owns (c : Thread nD τ) arg8 fullShare (cBlock x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_act _)
  iexists _; isplitr
  swap; · iexact H7
  ipureintro
  exact View.read_writes_eq_canon _ _ _ (cover_act _)

/-! ## The pipeline's proof data -/

/-- The proof data on core `c`: the arrays as the region finds them; after the body at point `t` each input buffer at
    its block and the two output buffers at `hBlock` / `cBlock` of the six input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hBlock (iblk m c 0 t) (iblk m c 1 t) (iblk m c 2 t) (iblk m c 3 t) (iblk m c 4 t) (iblk m c 5 t)
    | ⟨7, _⟩ => cBlock (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = hBlock (iblk m c 0 t) (iblk m c 1 t) (iblk m c 2 t) (iblk m c 3 t) (iblk m c 4 t) (iblk m c 5 t) := by dsimp only [dats]
theorem after0_7 (c : Dev nD) (t : Fin cfg0.N) : (dats m 0 c).after 7 t
    = cBlock (iblk m c 0 t) (iblk m c 1 t) (iblk m c 2 t) (iblk m c 3 t) (iblk m c 4 t) (iblk m c 5 t) := by dsimp only [dats]

/-- An input window's current staging buffer holds its block at every point, whether the pipeline fetched it there or
    kept it from the point before (the block index has then not moved; the three 512-row windows are fetched at every
    point, the weights and the bias at the first point only). -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the input buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state each window's array is what the proof
    data compute and every other unscoped buffer is as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Frm

end
-- ==== Proof.LstmSpec.lean ====
/-
  One step of an LSTM cell over the extended reals, as a function of whole arrays.

  For a batch of `n` rows with 256 input features and 256 hidden units, the four gate pre-activations of row `r` are the
  1024 columns of   x·Wx + h·Wh + b   (`gate`): columns 0–255 the input gate, 256–511 the forget gate, 512–767 the
  output gate, 768–1023 the candidate.  The new cell state is   σ(f)·c_prev + σ(i)·tanh(g)   and the new hidden state
  σ(o)·tanh(c_new),  σ the logistic function.  Stated for any number of rows so that the same function describes one
  512-row block and the whole 65536-row batch; a block of rows of the batch gives the same rows of the result because
  every entry depends on its own row only (`cellNew_rows`, `hidNew_rows`).
-/
import Idealize.ShloMosaic.PureOps.Ideal
import Idealize.ShloMosaic.Lib.ValueIdx

noncomputable section

open scoped BigOperators

namespace Cert.LstmSpec

open Idealize.ShloMosaic Idealize.ShloMosaic.ValueIdx

/-- Column `o + q` of the 1024 gate columns, for one of the four 256-wide bands. -/
abbrev col (o : Nat) (q : Fin 256) (ho : o + 256 ≤ 1024 := by decide) : Fin 1024 := ⟨o + q.val, by have := q.isLt; omega⟩

variable {n : Nat}

/-- Gate pre-activation of row `r`, column `j`:  (Σₖ x(r,k)·Wx(k,j) + Σₖ h(r,k)·Wh(k,j)) + b(j). -/
def gate (x h : (⟨2, ![n, 256]⟩ : Shape).Idx → EReal) (wx wh : (⟨2, ![256, 1024]⟩ : Shape).Idx → EReal)
    (b : (⟨1, ![1024]⟩ : Shape).Idx → EReal) (r : Fin n) (j : Fin 1024) : EReal :=
  (∑ k : Fin 256, x (ix2 r k) * wx (ix2 k j) + ∑ k : Fin 256, h (ix2 r k) * wh (ix2 k j)) + b (ix1 j)

/-- New cell state at row `r`, unit `q`:  σ(forget)·c_prev + σ(input)·tanh(candidate). -/
def cellNew (x h cp : (⟨2, ![n, 256]⟩ : Shape).Idx → EReal) (wx wh : (⟨2, ![256, 1024]⟩ : Shape).Idx → EReal)
    (b : (⟨1, ![1024]⟩ : Shape).Idx → EReal) (r : Fin n) (q : Fin 256) : EReal :=
  Ideal.logistic (gate x h wx wh b r (col 256 q)) * cp (ix2 r q)
    + Ideal.logistic (gate x h wx wh b r (col 0 q)) * Ideal.tanh (gate x h wx wh b r (col 768 q))

/-- New hidden state at row `r`, unit `q`:  σ(output)·tanh(new cell state). -/
def hidNew (x h cp : (⟨2, ![n, 256]⟩ : Shape).Idx → EReal) (wx wh : (⟨2, ![256, 1024]⟩ : Shape).Idx → EReal)
    (b : (⟨1, ![1024]⟩ : Shape).Idx → EReal) (r : Fin n) (q : Fin 256) : EReal :=
  Ideal.logistic (gate x h wx wh b r (col 512 q)) * Ideal.tanh (cellNew x h cp wx wh b r q)

/-- The new cell state as an array. -/
def cellArr (x h cp : (⟨2, ![n, 256]⟩ : Shape).Idx → EReal) (wx wh : (⟨2, ![256, 1024]⟩ : Shape).Idx → EReal)
    (b : (⟨1, ![1024]⟩ : Shape).Idx → EReal) : (⟨2, ![n, 256]⟩ : Shape).Idx → EReal :=
  fun i => cellNew x h cp wx wh b ⟨(i 0).val, (i 0).isLt⟩ ⟨(i 1).val, (i 1).isLt⟩

/-- The new hidden state as an array. -/
def hidArr (x h cp : (⟨2, ![n, 256]⟩ : Shape).Idx → EReal) (wx wh : (⟨2, ![256, 1024]⟩ : Shape).Idx → EReal)
    (b : (⟨1, ![1024]⟩ : Shape).Idx → EReal) : (⟨2, ![n, 256]⟩ : Shape).Idx → EReal :=
  fun i => hidNew x h cp wx wh b ⟨(i 0).val, (i 0).isLt⟩ ⟨(i 1).val, (i 1).isLt⟩

theorem cellArr_ix2 (x h cp : (⟨2, ![n, 256]⟩ : Shape).Idx → EReal) (wx wh : (⟨2, ![256, 1024]⟩ : Shape).Idx → EReal)
    (b : (⟨1, ![1024]⟩ : Shape).Idx → EReal) (r : Fin n) (q : Fin 256) :
    cellArr x h cp wx wh b (ix2 r q) = cellNew x h cp wx wh b r q := rfl

theorem hidArr_ix2 (x h cp : (⟨2, ![n, 256]⟩ : Shape).Idx → EReal) (wx wh : (⟨2, ![256, 1024]⟩ : Shape).Idx → EReal)
    (b : (⟨1, ![1024]⟩ : Shape).Idx → EReal) (r : Fin n) (q : Fin 256) :
    hidArr x h cp wx wh b (ix2 r q) = hidNew x h cp wx wh b r q := rfl

/-! ## A block of rows

If the rows of `x'`, `h'`, `cp'` (`n'` rows) at `ρ r` are the rows `r` of `x`, `h`, `cp`, the results agree on those rows. -/

variable {n' : Nat}

theorem gate_rows (x h : (⟨2, ![n, 256]⟩ : Shape).Idx → EReal) (x' h' : (⟨2, ![n', 256]⟩ : Shape).Idx → EReal)
    (wx wh : (⟨2, ![256, 1024]⟩ : Shape).Idx → EReal) (b : (⟨1, ![1024]⟩ : Shape).Idx → EReal) (r : Fin n) (r' : Fin n')
    (hx : ∀ k : Fin 256, x (ix2 r k) = x' (ix2 r' k)) (hh : ∀ k : Fin 256, h (ix2 r k) = h' (ix2 r' k)) (j : Fin 1024) :
    gate x h wx wh b r j = gate x' h' wx wh b r' j := by
  simp only [gate, hx, hh]

theorem cellNew_rows (x h cp : (⟨2, ![n, 256]⟩ : Shape).Idx → EReal) (x' h' cp' : (⟨2, ![n', 256]⟩ : Shape).Idx → EReal)
    (wx wh : (⟨2, ![256, 1024]⟩ : Shape).Idx → EReal) (b : (⟨1, ![1024]⟩ : Shape).Idx → EReal) (r : Fin n) (r' : Fin n')
    (hx : ∀ k : Fin 256, x (ix2 r k) = x' (ix2 r' k)) (hh : ∀ k : Fin 256, h (ix2 r k) = h' (ix2 r' k))
    (hc : ∀ k : Fin 256, cp (ix2 r k) = cp' (ix2 r' k)) (q : Fin 256) :
    cellNew x h cp wx wh b r q = cellNew x' h' cp' wx wh b r' q := by
  unfold cellNew
  rw [gate_rows x h x' h' wx wh b r r' hx hh, gate_rows x h x' h' wx wh b r r' hx hh,
    gate_rows x h x' h' wx wh b r r' hx hh, hc q]

theorem hidNew_rows (x h cp : (⟨2, ![n, 256]⟩ : Shape).Idx → EReal) (x' h' cp' : (⟨2, ![n', 256]⟩ : Shape).Idx → EReal)
    (wx wh : (⟨2, ![256, 1024]⟩ : Shape).Idx → EReal) (b : (⟨1, ![1024]⟩ : Shape).Idx → EReal) (r : Fin n) (r' : Fin n')
    (hx : ∀ k : Fin 256, x (ix2 r k) = x' (ix2 r' k)) (hh : ∀ k : Fin 256, h (ix2 r k) = h' (ix2 r' k))
    (hc : ∀ k : Fin 256, cp (ix2 r k) = cp' (ix2 r' k)) (q : Fin 256) :
    hidNew x h cp wx wh b r q = hidNew x' h' cp' wx wh b r' q := by
  unfold hidNew
  rw [gate_rows x h x' h' wx wh b r r' hx hh, cellNew_rows x h cp x' h' cp' wx wh b r r' hx hh hc]

end Cert.LstmSpec

end
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.IdealBlock.lean ====
/-
  The kernel body's arithmetic at the ideal values, entry by entry.

  For one 512-row block, with `a`, `hp`, `cp` the blocks of x, h_prev, c_prev, `wx`, `wh` the joined weights and `b` the
  joined bias, the body's three named values are the block-level LSTM step: the 512×1024 gate pre-activations
  (`pay_gate`), the new cell block (`pay_cell`) and the new hidden block (`pay_hid`).  The narrowing of the matrix
  operands to bf16 is the identity on extended reals; each matrix product into the zero accumulator is the plain sum
  over the 256 contracted coordinates; the bias row is re-laid as a 1×1024 row and repeated down the rows; the four
  gates are the four 256-column bands.
-/
import proofs.«122981_j1090921693307_1_alg».proof.Proof.Gen.KernelIdeal.Skeleton
import proofs.«122981_j1090921693307_1_alg».proof.Proof.LstmSpec
import proofs.«122981_j1090921693307_1_alg».proof.Proof.LibMatmulPlain
import Idealize.ShloMosaic.Lib.ValueIdx
import Idealize.ShloMosaic.Lib.Pipeline.Value
import Idealize.ShloMosaic.PureOps.Ideal.Laws

noncomputable section

open scoped BigOperators

namespace Cert.KernelIdeal.Block

open Cert.KernelIdeal Cert.KernelIdeal.Gen Cert.LstmSpec
open Idealize.ShloMosaic Idealize.ShloMosaic.ValueIdx

/-- The printed contraction (rows × 256 by 256 × columns, no batch axis) is the plain matrix product. -/
theorem dot_plain : dot_S512x256_S256x1024_S512x1024_1_0_0_1_n_n = DotDims.plain 512 256 1024 := rfl

/-- A block of activations, narrowed, times a weight matrix, narrowed, into the zero accumulator:
    entry (p, j) is Σₖ a(p,k)·w(k,j). -/
theorem mm_apply (a : Vec Ideal S512x256 .f32) (w : Vec Ideal S256x1024 .f32) (hb : FTy.bf16.bits < FTy.f32.bits)
    (hc : S256x1024.ShapeCasts S256x1024) (p : Fin 512) (j : Fin 1024) :
    matmul (F := Ideal) dot_S512x256_S256x1024_S512x1024_1_0_0_1_n_n none (truncf .bf16 a hb)
      (truncf .bf16 (shapeCast S256x1024 w hc) hb) (constant S512x1024 .f32 0x00000000#32) (ix2 p j)
    = ∑ k : Fin 256, a (ix2 p k) * w (ix2 k j) := by
  rw [shapeCast_self, dot_plain]
  exact Cert.LibMatmulPlain.matmul_plain_zero_apply none (truncf .bf16 a hb) (truncf .bf16 w hb) p j

/-- The bias row re-laid as one 1×1024 row and repeated down 512 rows: entry (p, j) is b(j). -/
theorem bias_apply (b : Vec Ideal S1024 .f32) (h0 : S1024.ShapeCasts S1024) (h1 : S1024.ShapeCasts S1x1024)
    (h2 : S1x1024.ShapeCasts S1x1024) (h3 : S1x1024.Broadcasts S512x1024) (p : Fin 512) (j : Fin 1024) :
    broadcastTo S512x1024 (shapeCast S1x1024 (shapeCast S1x1024 (shapeCast S1024 b h0) h1) h2) h3 (ix2 p j) = b (ix1 j) := by
  rw [shapeCast_self, shapeCast_self, Cert.LibMatmulPlain.rowBroadcast_apply]
  refine (shapeCast_addUnit_apply ![1024] b h1 (ix2 0 j)).trans (congrArg b (funext fun a => ?_))
  match a with
  | ⟨0, _⟩ => rfl

/-- One 256-column band of the 512×1024 gates. -/
theorem band_apply (o : Nat) (ho : o + 256 ≤ 1024) (g : Vec Ideal S512x1024 .f32) (h : S512x1024.Slices ![0, o] S512x256)
    (p : Fin 512) (q : Fin 256) :
    extractStridedSlice S512x256 ![0, o] g h (ix2 p q) = g (ix2 p (col o q ho)) :=
  extractStridedSlice_apply ![0, o] g h (ix2 p q) (ix2 p (col o q ho)) fun a =>
    match a with
    | ⟨0, _⟩ => (Nat.zero_add _).symm
    | ⟨1, _⟩ => rfl

/-- The logistic function and tanh act entry by entry. -/
theorem logistic_apply {s : Shape} (x : FVec Ideal s .f32) (i : s.Idx) : logistic x i = Ideal.logistic (x i) := rfl
theorem tanh_apply {s : Shape} (x : FVec Ideal s .f32) (i : s.Idx) : tanh x i = Ideal.tanh (x i) := rfl

variable (a hp : Vec Ideal S512x256 .f32) (wx wh : Vec Ideal S256x1024 .f32) (b : Vec Ideal S1024 .f32)

/-- The body's gate pre-activations are the specification's, entry by entry. -/
theorem pay_gate (p : Fin 512) (j : Fin 1024) :
    k0_pay1 (F := Ideal) a hp wx wh b (ix2 p j) = gate a hp wx wh b p j := by
  unfold k0_pay1 gate
  rw [addf_apply, addf_apply, mm_apply, mm_apply, bias_apply]

/-- The body's new cell block is the specification's. -/
theorem pay_cell (cp : Vec Ideal S512x256 .f32) (p : Fin 512) (q : Fin 256) :
    k0_pay2 (F := Ideal) a hp wx wh b cp (ix2 p q) = cellNew a hp cp wx wh b p q := by
  unfold k0_pay2 cellNew
  rw [addf_apply, mulf_apply, mulf_apply, logistic_apply, logistic_apply, tanh_apply,
    band_apply 256 (by decide), band_apply 0 (by decide), band_apply 768 (by decide), pay_gate, pay_gate, pay_gate]

/-- The body's new hidden block is the specification's. -/
theorem pay_hid (cp : Vec Ideal S512x256 .f32) (p : Fin 512) (q : Fin 256) :
    k0_pay3 (F := Ideal) a hp wx wh b cp (ix2 p q) = hidNew a hp cp wx wh b p q := by
  unfold k0_pay3 hidNew
  rw [mulf_apply, logistic_apply, tanh_apply, band_apply 512 (by decide), pay_gate, pay_cell]

end Cert.KernelIdeal.Block

end
-- ==== Proof.IdealValue.lean ====
/-
  The idealized kernel's two result arrays, as whole-array functions of the arguments.

  Grid point `t` of the 128 handles rows 512·t … 512·t+511: the blocks of x, h_prev, c_prev and of both results at `t`
  are those rows (all 256 columns), and the joined weights and the joined bias are fetched whole.  Since every entry of
  the LSTM step depends on its own row only, what point `t` writes back is rows 512·t … of the whole-batch step
  (`flushed_hid`, `flushed_cell`), the 128 blocks tile the 65536 rows (`cover_hid`, `cover_cell`), and so the two
  results end as the specification's hidden and cell arrays of the argument arrays and the three joined arrays
  (`final_hid`, `final_cell`, `run`).  The steps: the printed index maps decided once over the grid, each block read
  where the output's rectangle says, the cover by arithmetic (row r lies in the block of point r / 512).
-/
import proofs.«122981_j1090921693307_1_alg».proof.Proof.IdealFrame
import proofs.«122981_j1090921693307_1_alg».proof.Proof.IdealBlock
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Frm Cert.KernelIdeal.Block Cert.LstmSpec
open Cert.KernelIdeal.Facts₀
open Idealize.ShloMosaic Idealize.ShloMosaic.TcCoe Idealize.ShloMosaic.ValueIdx Idealize.ShloMosaic.StableHlo
open Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The printed index maps, decided over the 128 points: the row windows are at block row `t`, column block 0; the
    weights and the bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val < 128 := Nat.lt_of_lt_of_eq t.isLt N_0

/-! ## The input blocks at a point -/

/-- The x block at point `t` is rows 512·t … of x. -/
theorem blk_x (c : Dev nD) (t : Fin cfg0.N) (p : Fin 512) (k : Fin 256) (h : t.val * 512 + p.val < 65536) :
    iblk m c 0 t (ix2 p k) = V m c main_arg0 (ix2 (⟨t.val * 512 + p.val, h⟩ : Fin 65536) k) := by
  obtain ⟨e0, e1, -⟩ := idx_facts t
  show V m c main_arg0 (((cfg0.win 0).blk t).view.emb (ix2 p k)) = _
  refine congrArg (V m c main_arg0) (funext fun a => Fin.ext ?_)
  match a with
  | ⟨0, _⟩ => show win0_0.index t (0 : Fin 2) * 512 + 1 * p.val = t.val * 512 + p.val; rw [e0]; omega
  | ⟨1, _⟩ => show win0_0.index t (1 : Fin 2) * 256 + 1 * k.val = k.val; rw [e1]; omega

/-- The h_prev block at point `t` is rows 512·t … of h_prev. -/
theorem blk_h (c : Dev nD) (t : Fin cfg0.N) (p : Fin 512) (k : Fin 256) (h : t.val * 512 + p.val < 65536) :
    iblk m c 1 t (ix2 p k) = V m c main_arg1 (ix2 (⟨t.val * 512 + p.val, h⟩ : Fin 65536) k) := by
  obtain ⟨-, -, e0, e1, -⟩ := idx_facts t
  show V m c main_arg1 (((cfg0.win 1).blk t).view.emb (ix2 p k)) = _
  refine congrArg (V m c main_arg1) (funext fun a => Fin.ext ?_)
  match a with
  | ⟨0, _⟩ => show win0_1.index t (0 : Fin 2) * 512 + 1 * p.val = t.val * 512 + p.val; rw [e0]; omega
  | ⟨1, _⟩ => show win0_1.index t (1 : Fin 2) * 256 + 1 * k.val = k.val; rw [e1]; omega

/-- The c_prev block at point `t` is rows 512·t … of c_prev. -/
theorem blk_c (c : Dev nD) (t : Fin cfg0.N) (p : Fin 512) (k : Fin 256) (h : t.val * 512 + p.val < 65536) :
    iblk m c 2 t (ix2 p k) = V m c main_arg2 (ix2 (⟨t.val * 512 + p.val, h⟩ : Fin 65536) k) := by
  obtain ⟨-, -, -, -, e0, e1, -⟩ := idx_facts t
  show V m c main_arg2 (((cfg0.win 2).blk t).view.emb (ix2 p k)) = _
  refine congrArg (V m c main_arg2) (funext fun a => Fin.ext ?_)
  match a with
  | ⟨0, _⟩ => show win0_2.index t (0 : Fin 2) * 512 + 1 * p.val = t.val * 512 + p.val; rw [e0]; omega
  | ⟨1, _⟩ => show win0_2.index t (1 : Fin 2) * 256 + 1 * k.val = k.val; rw [e1]; omega

/-- The input-weight window is the whole joined matrix at every point. -/
theorem blk_wx (c : Dev nD) (t : Fin cfg0.N) : (iblk m c 3 t : Vec Ideal S256x1024 .f32) = V m c main_v0 := by
  obtain ⟨-, -, -, -, -, -, e0, e1, -⟩ := idx_facts t
  funext y
  show V m c main_v0 (((cfg0.win 3).blk t).view.emb y) = V m c main_v0 y
  refine congrArg (V m c main_v0) (funext fun a => Fin.ext ?_)
  match a with
  | ⟨0, _⟩ => show win0_3.index t (0 : Fin 2) * 256 + 1 * (y 0).val = (y 0).val; rw [e0]; omega
  | ⟨1, _⟩ => show win0_3.index t (1 : Fin 2) * 1024 + 1 * (y 1).val = (y 1).val; rw [e1]; omega

/-- The hidden-weight window is the whole joined matrix at every point. -/
theorem blk_wh (c : Dev nD) (t : Fin cfg0.N) : (iblk m c 4 t : Vec Ideal S256x1024 .f32) = V m c main_v1 := by
  obtain ⟨-, -, -, -, -, -, -, -, e0, e1, -⟩ := idx_facts t
  funext y
  show V m c main_v1 (((cfg0.win 4).blk t).view.emb y) = V m c main_v1 y
  refine congrArg (V m c main_v1) (funext fun a => Fin.ext ?_)
  match a with
  | ⟨0, _⟩ => show win0_4.index t (0 : Fin 2) * 256 + 1 * (y 0).val = (y 0).val; rw [e0]; omega
  | ⟨1, _⟩ => show win0_4.index t (1 : Fin 2) * 1024 + 1 * (y 1).val = (y 1).val; rw [e1]; omega

/-- The bias window is the whole joined row at every point. -/
theorem blk_b (c : Dev nD) (t : Fin cfg0.N) : (iblk m c 5 t : Vec Ideal S1024 .f32) = V m c main_v2 := by
  obtain ⟨-, -, -, -, -, -, -, -, -, -, e0, -⟩ := idx_facts t
  funext y
  show V m c main_v2 (((cfg0.win 5).blk t).view.emb y) = V m c main_v2 y
  refine congrArg (V m c main_v2) (funext fun a => Fin.ext ?_)
  match a with
  | ⟨0, _⟩ => show win0_5.index t (0 : Fin 1) * 1024 + 1 * (y 0).val = (y 0).val; rw [e0]; omega

/-! ## A block of the step is the same rows of the whole-batch step -/

section Rows

variable (X H CP : Vec Ideal S65536x256 .f32) (WX WH : Vec Ideal S256x1024 .f32) (B : Vec Ideal S1024 .f32)
  (a hp cp : Vec Ideal S512x256 .f32) (r0 : Nat)
  (ha : ∀ (p : Fin 512) (k : Fin 256) (h : r0 + p.val < 65536), a (ix2 p k) = X (ix2 (⟨r0 + p.val, h⟩ : Fin 65536) k))
  (hh : ∀ (p : Fin 512) (k : Fin 256) (h : r0 + p.val < 65536), hp (ix2 p k) = H (ix2 (⟨r0 + p.val, h⟩ : Fin 65536) k))
  (hc : ∀ (p : Fin 512) (k : Fin 256) (h : r0 + p.val < 65536), cp (ix2 p k) = CP (ix2 (⟨r0 + p.val, h⟩ : Fin 65536) k))

include ha hh hc in
theorem hid_at (j : S512x256.Idx) (i : S65536x256.Idx) (hi0 : (i 0).val = r0 + (j 0).val) (hi1 : (i 1).val = (j 1).val) :
    k0_pay3 (F := Ideal) a hp WX WH B cp j = hidArr X H CP WX WH B i := by
  obtain ⟨p, q, rfl⟩ : ∃ (p : Fin 512) (q : Fin 256), j = ix2 p q := ⟨j 0, j 1, eq_ix2 j⟩
  have hr : r0 + p.val < 65536 := by have := (i 0).isLt; change (i 0).val < 65536 at this; rw [hi0] at this; exact this
  have hi : i = ix2 (⟨r0 + p.val, hr⟩ : Fin 65536) q := funext fun ax => Fin.ext (by
    match ax with
    | ⟨0, _⟩ => exact hi0
    | ⟨1, _⟩ => exact hi1)
  rw [hi, pay_hid, hidArr_ix2]
  exact (hidNew_rows X H CP a hp cp WX WH B ⟨r0 + p.val, hr⟩ p (fun k => (ha p k hr).symm) (fun k => (hh p k hr).symm)
    (fun k => (hc p k hr).symm) q).symm

include ha hh hc in
theorem cell_at (j : S512x256.Idx) (i : S65536x256.Idx) (hi0 : (i 0).val = r0 + (j 0).val) (hi1 : (i 1).val = (j 1).val) :
    k0_pay2 (F := Ideal) a hp WX WH B cp j = cellArr X H CP WX WH B i := by
  obtain ⟨p, q, rfl⟩ : ∃ (p : Fin 512) (q : Fin 256), j = ix2 p q := ⟨j 0, j 1, eq_ix2 j⟩
  have hr : r0 + p.val < 65536 := by have := (i 0).isLt; change (i 0).val < 65536 at this; rw [hi0] at this; exact this
  have hi : i = ix2 (⟨r0 + p.val, hr⟩ : Fin 65536) q := funext fun ax => Fin.ext (by
    match ax with
    | ⟨0, _⟩ => exact hi0
    | ⟨1, _⟩ => exact hi1)
  rw [hi, pay_cell, cellArr_ix2]
  exact (cellNew_rows X H CP a hp cp WX WH B ⟨r0 + p.val, hr⟩ p (fun k => (ha p k hr).symm) (fun k => (hh p k hr).symm)
    (fun k => (hc p k hr).symm) q).symm

end Rows

/-! ## What each point writes back -/

/-- Point `t` writes back rows 512·t … of the whole-batch hidden array. -/
theorem flushed_hid (c : Dev nD) (t : Fin cfg0.N) :
    (dats m 0 c).flushed 6 t = ((cfg0.win 6).blk t).view.read (Elt Ideal)
      (hidArr (V m c main_arg0) (V m c main_arg1) (V m c main_arg2) (V m c main_v0) (V m c main_v1) (V m c main_v2)) := by
  show (cfg0.win 6).cut (grid0.coords t) ((dats m 0 c).after 6 t) = _
  rw [after0_6]
  unfold hBlock
  rw [View.canon_unit_zero hz2]
  simp only [View.ld_unit_zero (S := S512x256) hz2, View.ld_unit_zero (S := S256x1024) hz2, View.ld_unit_zero (S := S1024) hz1]
  rw [blk_wx m c t, blk_wh m c t, blk_b m c t]
  obtain ⟨-, -, -, -, -, -, -, -, -, -, -, e0, e1, -⟩ := idx_facts t
  funext j
  refine hid_at (V m c main_arg0) (V m c main_arg1) (V m c main_arg2) (V m c main_v0) (V m c main_v1) (V m c main_v2)
    (iblk m c 0 t) (iblk m c 1 t) (iblk m c 2 t) (t.val * 512) (fun p k h => blk_x m c t p k h) (fun p k h => blk_h m c t p k h)
    (fun p k h => blk_c m c t p k h) j (((cfg0.win 6).blk t).view.emb j) ?_ ?_
  · show win0_6.index t (0 : Fin 2) * 512 + 1 * (j 0).val = t.val * 512 + (j 0).val; rw [e0]; omega
  · show win0_6.index t (1 : Fin 2) * 256 + 1 * (j 1).val = (j 1).val; rw [e1]; omega

/-- Point `t` writes back rows 512·t … of the whole-batch cell array. -/
theorem flushed_cell (c : Dev nD) (t : Fin cfg0.N) :
    (dats m 0 c).flushed 7 t = ((cfg0.win 7).blk t).view.read (Elt Ideal)
      (cellArr (V m c main_arg0) (V m c main_arg1) (V m c main_arg2) (V m c main_v0) (V m c main_v1) (V m c main_v2)) := by
  show (cfg0.win 7).cut (grid0.coords t) ((dats m 0 c).after 7 t) = _
  rw [after0_7]
  unfold cBlock
  rw [View.canon_unit_zero hz2]
  simp only [View.ld_unit_zero (S := S512x256) hz2, View.ld_unit_zero (S := S256x1024) hz2, View.ld_unit_zero (S := S1024) hz1]
  rw [blk_wx m c t, blk_wh m c t, blk_b m c t]
  obtain ⟨-, -, -, -, -, -, -, -, -, -, -, -, -, e0, e1⟩ := idx_facts t
  funext j
  refine cell_at (V m c main_arg0) (V m c main_arg1) (V m c main_arg2) (V m c main_v0) (V m c main_v1) (V m c main_v2)
    (iblk m c 0 t) (iblk m c 1 t) (iblk m c 2 t) (t.val * 512) (fun p k h => blk_x m c t p k h) (fun p k h => blk_h m c t p k h)
    (fun p k h => blk_c m c t p k h) j (((cfg0.win 7).blk t).view.emb j) ?_ ?_
  · show win0_7.index t (0 : Fin 2) * 512 + 1 * (j 0).val = t.val * 512 + (j 0).val; rw [e0]; omega
  · show win0_7.index t (1 : Fin 2) * 256 + 1 * (j 1).val = (j 1).val; rw [e1]; omega

/-! ## The 128 blocks tile the 65536 rows -/

theorem mem_blk_hid (t : Fin cfg0.N) (i : S65536x256.Idx) :
    i ∈ ((cfg0.win 6).blk t).view.set ↔ ∀ a : Fin 2, win0_6.index t a * S512x256.size a ≤ (i a).val ∧ (i a).val < win0_6.index t a * S512x256.size a + S512x256.size a := by
  show i ∈ ((View.whole main_v3_0).slice (win0_6.rect t)).set ↔ _
  rw [View.set_slice_whole, Rect.mem_set_unit]
  exact Iff.rfl

theorem mem_blk_cell (t : Fin cfg0.N) (i : S65536x256.Idx) :
    i ∈ ((cfg0.win 7).blk t).view.set ↔ ∀ a : Fin 2, win0_7.index t a * S512x256.size a ≤ (i a).val ∧ (i a).val < win0_7.index t a * S512x256.size a + S512x256.size a := by
  show i ∈ ((View.whole main_v3_1).slice (win0_7.rect t)).set ↔ _
  rw [View.set_slice_whole, Rect.mem_set_unit]
  exact Iff.rfl

/-- Row `r` lies in the block of point `r / 512`. -/
theorem cover_hid (i : S65536x256.Idx) : ∃ t : Fin cfg0.N, (cfg0.win 6).flush t = true ∧ i ∈ ((cfg0.win 6).blk t).view.set := by
  have hi0 : (i 0).val < 65536 := (i 0).isLt
  have hi1 : (i 1).val < 256 := (i 1).isLt
  have hN : (i 0).val / 512 < cfg0.N := by rw [show cfg0.N = 128 from N_0]; omega
  obtain ⟨-, -, -, -, -, -, -, -, -, -, -, e0, e1, -⟩ := idx_facts ⟨(i 0).val / 512, hN⟩
  refine ⟨⟨(i 0).val / 512, hN⟩, flush0_6 _, ?_⟩
  rw [mem_blk_hid]
  intro a
  match a with
  | ⟨0, _⟩ =>
    show win0_6.index ⟨(i 0).val / 512, hN⟩ (0 : Fin 2) * 512 ≤ (i 0).val ∧ (i 0).val < win0_6.index ⟨(i 0).val / 512, hN⟩ (0 : Fin 2) * 512 + 512
    rw [e0]; show (i 0).val / 512 * 512 ≤ (i 0).val ∧ (i 0).val < (i 0).val / 512 * 512 + 512; omega
  | ⟨1, _⟩ =>
    show win0_6.index ⟨(i 0).val / 512, hN⟩ (1 : Fin 2) * 256 ≤ (i 1).val ∧ (i 1).val < win0_6.index ⟨(i 0).val / 512, hN⟩ (1 : Fin 2) * 256 + 256
    rw [e1]; omega

theorem cover_cell (i : S65536x256.Idx) : ∃ t : Fin cfg0.N, (cfg0.win 7).flush t = true ∧ i ∈ ((cfg0.win 7).blk t).view.set := by
  have hi0 : (i 0).val < 65536 := (i 0).isLt
  have hi1 : (i 1).val < 256 := (i 1).isLt
  have hN : (i 0).val / 512 < cfg0.N := by rw [show cfg0.N = 128 from N_0]; omega
  obtain ⟨-, -, -, -, -, -, -, -, -, -, -, -, -, e0, e1⟩ := idx_facts ⟨(i 0).val / 512, hN⟩
  refine ⟨⟨(i 0).val / 512, hN⟩, flush0_7 _, ?_⟩
  rw [mem_blk_cell]
  intro a
  match a with
  | ⟨0, _⟩ =>
    show win0_7.index ⟨(i 0).val / 512, hN⟩ (0 : Fin 2) * 512 ≤ (i 0).val ∧ (i 0).val < win0_7.index ⟨(i 0).val / 512, hN⟩ (0 : Fin 2) * 512 + 512
    rw [e0]; show (i 0).val / 512 * 512 ≤ (i 0).val ∧ (i 0).val < (i 0).val / 512 * 512 + 512; omega
  | ⟨1, _⟩ =>
    show win0_7.index ⟨(i 0).val / 512, hN⟩ (1 : Fin 2) * 256 ≤ (i 1).val ∧ (i 1).val < win0_7.index ⟨(i 0).val / 512, hN⟩ (1 : Fin 2) * 256 + 256
    rw [e1]; omega

/-! ## The joined arrays the region finds -/

/-- The four input-to-hidden matrices side by side. -/
def joinW (x3 x6 x9 x12 : Vec Ideal S256x256 .f32) : Vec Ideal S256x1024 .f32 :=
  concatenate S256x1024 1 [⟨S256x256, x3⟩, ⟨S256x256, x6⟩, ⟨S256x256, x9⟩, ⟨S256x256, x12⟩] Facts₀.concatenates_S256x256_S256x256_S256x256_S256x256_S256x1024_d1

/-- The four bias rows end to end. -/
def joinB (x5 x8 x11 x14 : Vec Ideal S256 .f32) : Vec Ideal S1024 .f32 :=
  concatenate S1024 0 [⟨S256, x5⟩, ⟨S256, x8⟩, ⟨S256, x11⟩, ⟨S256, x14⟩] Facts₀.concatenates_S256_S256_S256_S256_S1024_d0

theorem V_wx (c : Dev nD) : V m c main_v0 = joinW (m ((c : Thread nD τ).loc main_arg3)) (m ((c : Thread nD τ).loc main_arg6))
    (m ((c : Thread nD τ).loc main_arg9)) (m ((c : Thread nD τ).loc main_arg12)) := by
  show StableHlo.after (List.flatten [hostOps0]) (fun b => m (c, b)) (Proc.devRef .tc main_v0) = _
  simp only [hostOps0, List.flatten_cons, List.flatten_nil, List.append_nil]
  after_results
  rfl

theorem V_wh (c : Dev nD) : V m c main_v1 = joinW (m ((c : Thread nD τ).loc main_arg4)) (m ((c : Thread nD τ).loc main_arg7))
    (m ((c : Thread nD τ).loc main_arg10)) (m ((c : Thread nD τ).loc main_arg13)) := by
  show StableHlo.after (List.flatten [hostOps0]) (fun b => m (c, b)) (Proc.devRef .tc main_v1) = _
  simp only [hostOps0, List.flatten_cons, List.flatten_nil, List.append_nil]
  after_results
  rfl

theorem V_b (c : Dev nD) : V m c main_v2 = joinB (m ((c : Thread nD τ).loc main_arg5)) (m ((c : Thread nD τ).loc main_arg8))
    (m ((c : Thread nD τ).loc main_arg11)) (m ((c : Thread nD τ).loc main_arg14)) := by
  show StableHlo.after (List.flatten [hostOps0]) (fun b => m (c, b)) (Proc.devRef .tc main_v2) = _
  simp only [hostOps0, List.flatten_cons, List.flatten_nil, List.append_nil]
  after_results
  rfl

/-! ## The result arrays after the run -/

/-- The hidden-state result as a function of core `c`'s argument arrays. -/
def hidOf (c : Dev nD) : Vec Ideal S65536x256 .f32 :=
  hidArr (m ((c : Thread nD τ).loc main_arg0)) (m ((c : Thread nD τ).loc main_arg1)) (m ((c : Thread nD τ).loc main_arg2))
    (joinW (m ((c : Thread nD τ).loc main_arg3)) (m ((c : Thread nD τ).loc main_arg6)) (m ((c : Thread nD τ).loc main_arg9)) (m ((c : Thread nD τ).loc main_arg12)))
    (joinW (m ((c : Thread nD τ).loc main_arg4)) (m ((c : Thread nD τ).loc main_arg7)) (m ((c : Thread nD τ).loc main_arg10)) (m ((c : Thread nD τ).loc main_arg13)))
    (joinB (m ((c : Thread nD τ).loc main_arg5)) (m ((c : Thread nD τ).loc main_arg8)) (m ((c : Thread nD τ).loc main_arg11)) (m ((c : Thread nD τ).loc main_arg14)))

/-- The cell-state result as a function of core `c`'s argument arrays. -/
def cellOf (c : Dev nD) : Vec Ideal S65536x256 .f32 :=
  cellArr (m ((c : Thread nD τ).loc main_arg0)) (m ((c : Thread nD τ).loc main_arg1)) (m ((c : Thread nD τ).loc main_arg2))
    (joinW (m ((c : Thread nD τ).loc main_arg3)) (m ((c : Thread nD τ).loc main_arg6)) (m ((c : Thread nD τ).loc main_arg9)) (m ((c : Thread nD τ).loc main_arg12)))
    (joinW (m ((c : Thread nD τ).loc main_arg4)) (m ((c : Thread nD τ).loc main_arg7)) (m ((c : Thread nD τ).loc main_arg10)) (m ((c : Thread nD τ).loc main_arg13)))
    (joinB (m ((c : Thread nD τ).loc main_arg5)) (m ((c : Thread nD τ).loc main_arg8)) (m ((c : Thread nD τ).loc main_arg11)) (m ((c : Thread nD τ).loc main_arg14)))

theorem final_hid (c : Dev nD) : (dats m 0 c).arrAt 6 cfg0.N = hidOf m c := by
  rw [(dats m 0 c).arrAt_eq_of_cover 6 _ (fun t _ => flushed_hid m c t) cover_hid]
  unfold hidOf
  rw [V_wx, V_wh, V_b, V_of_ne m c main_arg0 (by decide) (by decide) (by decide),
    V_of_ne m c main_arg1 (by decide) (by decide) (by decide), V_of_ne m c main_arg2 (by decide) (by decide) (by decide)]

theorem final_cell (c : Dev nD) : (dats m 0 c).arrAt 7 cfg0.N = cellOf m c := by
  rw [(dats m 0 c).arrAt_eq_of_cover 7 _ (fun t _ => flushed_cell m c t) cover_cell]
  unfold cellOf
  rw [V_wx, V_wh, V_b, V_of_ne m c main_arg0 (by decide) (by decide) (by decide),
    V_of_ne m c main_arg1 (by decide) (by decide) (by decide), V_of_ne m c main_arg2 (by decide) (by decide) (by decide)]

/-- Every weakly fair execution of the idealized kernel's @main terminates with the two results at the specification's
    hidden and cell arrays of the arguments, the arguments unchanged. -/
theorem run : θ_run defs (onTc (τ := τ) (main (F := Ideal))) ⟨m, fun _ => 0, ρ⟩ fun r => ∀ c : Dev nD,
      r.2.mem ((c.tc : Thread nD τ).loc main_v3_0) = hidOf m c
      ∧ r.2.mem ((c.tc : Thread nD τ).loc main_v3_1) = cellOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).1 6).trans (final_hid m c), ((h c).1 7).trans (final_cell m c),
      kept_args m (dats m) (A_eq m) r h c⟩)
    (run_main m ρ)

end Cert.KernelIdeal.Val

end
-- ==== Proof.RefSpec.lean ====
/-
  The reference program computes the LSTM step of the specification.

  Read one operation at a time, the reference's gate pre-activations are   x·Wx + h·Wh + b   over the joined weights and
  bias (`ref_gate`); its sigmoid is spelt  1 / (1 + exp(−g)),  which on the extended reals is the logistic function by
  definition once the literal 1.0 is read as the real 1 (`one_f32`, `sigmoid_spelt`); the four gates are the four
  256-column bands.  So its second result is the specification's new cell array (`ref_cell`) and its first the new
  hidden array (`ref_hid`), whatever the inputs.
-/
import proofs.«122981_j1090921693307_1_alg».proof.Proof.Gen.ReferenceIdeal.Read
import proofs.«122981_j1090921693307_1_alg».proof.Proof.LstmSpec

noncomputable section

open scoped BigOperators

namespace Cert.ReferenceIdeal.RefSpec

open Cert.ReferenceIdeal Cert.ReferenceIdeal.Read Cert.LstmSpec
open Idealize.ShloMosaic Idealize.ShloMosaic.ValueIdx

/-- The f32 pattern of 1.0 is the real number 1. -/
theorem one_f32 : Ideal.ofBits .f32 0x3F800000#32 = 1 := by
  simp [Ideal.ofBits, Ideal.ieee, -EReal.coe_mul]; norm_num

/-- 1 / (1 + exp(−g)) with the literal ones is the logistic function, on every extended real. -/
theorem sigmoid_spelt (g : EReal) :
    Ideal.div (Ideal.ofBits .f32 0x3F800000#32) (Ideal.ofBits .f32 0x3F800000#32 + Ideal.exp (-g)) = Ideal.logistic g := by
  rw [one_f32]; rfl

variable (x0 x1 x2 : (⟨S65536x256, .f32⟩ : BufTy).Contents (Elt Ideal))
  (x3 x4 : (⟨S256x256, .f32⟩ : BufTy).Contents (Elt Ideal)) (x5 : (⟨S256, .f32⟩ : BufTy).Contents (Elt Ideal))
  (x6 x7 : (⟨S256x256, .f32⟩ : BufTy).Contents (Elt Ideal)) (x8 : (⟨S256, .f32⟩ : BufTy).Contents (Elt Ideal))
  (x9 x10 : (⟨S256x256, .f32⟩ : BufTy).Contents (Elt Ideal)) (x11 : (⟨S256, .f32⟩ : BufTy).Contents (Elt Ideal))
  (x12 x13 : (⟨S256x256, .f32⟩ : BufTy).Contents (Elt Ideal)) (x14 : (⟨S256, .f32⟩ : BufTy).Contents (Elt Ideal))

/-- The reference's pre-activations at row `r`, column `j`. -/
theorem ref_gate (r : Fin 65536) (j : Fin 1024) :
    val_main_v8 (F := Ideal) x0 x1 x3 x4 x5 x6 x7 x8 x9 x10 x11 x12 x13 x14 (ix2 r j)
      = gate x0 x1 (val_main_v0 (F := Ideal) x3 x6 x9 x12) (val_main_v1 (F := Ideal) x4 x7 x10 x13)
          (val_main_v2 (F := Ideal) x5 x8 x11 x14) r j := by
  rw [val_main_v8_apply, val_main_v5_apply, val_main_v3_apply, val_main_v4_apply, val_main_v7_apply, val_main_v6_apply]
  have e1 : ∀ k : Fin 256, lidx_main_v3 (ix2 r j) k = ix2 r k := fun k => funext fun a => by
    match a with
    | ⟨0, _⟩ => rfl
    | ⟨1, _⟩ => rfl
  have e2 : ∀ k : Fin 256, ridx_main_v3 (ix2 r j) k = ix2 k j := fun k => funext fun a => by
    match a with
    | ⟨0, _⟩ => rfl
    | ⟨1, _⟩ => rfl
  have e3 : ∀ k : Fin 256, lidx_main_v4 (ix2 r j) k = ix2 r k := fun k => funext fun a => by
    match a with
    | ⟨0, _⟩ => rfl
    | ⟨1, _⟩ => rfl
  have e4 : ∀ k : Fin 256, ridx_main_v4 (ix2 r j) k = ix2 k j := fun k => funext fun a => by
    match a with
    | ⟨0, _⟩ => rfl
    | ⟨1, _⟩ => rfl
  have e5 : idx_main_v6 (idx_main_v7 (ix2 r j)) = ix1 j := funext fun a => by
    match a with
    | ⟨0, _⟩ => rfl
  simp only [e1, e2, e3, e4, e5]
  rfl

/-- The reference's second result is the new cell array. -/
theorem ref_cell :
    val_main_v34 (F := Ideal) x0 x1 x2 x3 x4 x5 x6 x7 x8 x9 x10 x11 x12 x13 x14
      = cellArr x0 x1 x2 (val_main_v0 (F := Ideal) x3 x6 x9 x12) (val_main_v1 (F := Ideal) x4 x7 x10 x13)
          (val_main_v2 (F := Ideal) x5 x8 x11 x14) := by
  funext i
  obtain ⟨r, q, rfl⟩ : ∃ (r : Fin 65536) (q : Fin 256), i = ix2 r q := ⟨i 0, i 1, eq_ix2 i⟩
  rw [cellArr_ix2]
  unfold cellNew
  have e9 : idx_main_v9 (ix2 r q) = ix2 r (col 0 q) := funext fun a => by
    match a with
    | ⟨0, _⟩ => rfl
    | ⟨1, _⟩ => exact Fin.ext (Nat.zero_add _).symm
  have e10 : idx_main_v10 (ix2 r q) = ix2 r (col 256 q) := funext fun a => by
    match a with
    | ⟨0, _⟩ => rfl
    | ⟨1, _⟩ => rfl
  have e12 : idx_main_v12 (ix2 r q) = ix2 r (col 768 q) := funext fun a => by
    match a with
    | ⟨0, _⟩ => rfl
    | ⟨1, _⟩ => rfl
  rw [val_main_v34_apply, val_main_v32_apply, val_main_v33_apply,
    val_main_v24_apply, val_main_v23_apply, val_main_cst_2_apply, val_main_v22_apply, val_main_v21_apply, val_main_cst_1_apply,
    val_main_v20_apply, val_main_v19_apply, val_main_v10_apply,
    val_main_v18_apply, val_main_v17_apply, val_main_cst_0_apply, val_main_v16_apply, val_main_v15_apply, val_main_cst_apply,
    val_main_v14_apply, val_main_v13_apply, val_main_v9_apply,
    val_main_v31_apply, val_main_v12_apply, e9, e10, e12, ref_gate, ref_gate, ref_gate]
  simp only [Ideal.addf_def, Ideal.mulf_def, Ideal.hostDivf_def, Ideal.hostUnary_exp_def, Ideal.hostNegf_def, Ideal.negf_def,
    Ideal.ofBits_def, Ideal.hostUnary_tanh_def, sigmoid_spelt]

/-- The reference's first result is the new hidden array. -/
theorem ref_hid :
    val_main_v36 (F := Ideal) x0 x1 x2 x3 x4 x5 x6 x7 x8 x9 x10 x11 x12 x13 x14
      = hidArr x0 x1 x2 (val_main_v0 (F := Ideal) x3 x6 x9 x12) (val_main_v1 (F := Ideal) x4 x7 x10 x13)
          (val_main_v2 (F := Ideal) x5 x8 x11 x14) := by
  funext i
  obtain ⟨r, q, rfl⟩ : ∃ (r : Fin 65536) (q : Fin 256), i = ix2 r q := ⟨i 0, i 1, eq_ix2 i⟩
  rw [hidArr_ix2]
  unfold hidNew
  have e11 : idx_main_v11 (ix2 r q) = ix2 r (col 512 q) := funext fun a => by
    match a with
    | ⟨0, _⟩ => rfl
    | ⟨1, _⟩ => rfl
  rw [val_main_v36_apply, val_main_v30_apply, val_main_v29_apply, val_main_cst_4_apply, val_main_v28_apply, val_main_v27_apply,
    val_main_cst_3_apply, val_main_v26_apply, val_main_v25_apply, val_main_v11_apply, val_main_v35_apply, e11, ref_gate,
    ref_cell, cellArr_ix2]
  simp only [Ideal.addf_def, Ideal.mulf_def, Ideal.hostDivf_def, Ideal.hostUnary_exp_def, Ideal.hostNegf_def, Ideal.negf_def,
    Ideal.ofBits_def, Ideal.hostUnary_tanh_def, sigmoid_spelt]

end Cert.ReferenceIdeal.RefSpec

end
-- ==== Proof.lean ====
/-
  One step of an LSTM cell, a Pallas kernel against its jnp reference, over the extended reals.

  Both programs join the four input-to-hidden matrices, the four hidden-to-hidden matrices and the four bias rows into
  Wx, Wh (256×1024) and b (1024), form the gate pre-activations  x·Wx + h·Wh + b,  and return
  c' = σ(f)·c + σ(i)·tanh(g)  and  h' = σ(o)·tanh(c').  The kernel works through the 65536 rows in 128 blocks of 512, its
  matrix operands narrowed to bf16 (the identity on extended reals) and its sigmoid the one logistic operation; the
  reference works on whole arrays and spells the sigmoid 1 / (1 + exp(−g)), which is the logistic function by
  definition.  Every entry of the result depends on its own row of x, h, c only, so the kernel's blocks are the rows of
  the whole-batch step, and both programs end with the same two arrays whatever the (finite or not) inputs: the
  precondition is never opened.  The sums over the 256 contracted coordinates are the same sums on both sides, term
  by term, and the additions are grouped alike, so no law of the extended reals beyond rewriting is used.

  The three frames: each kernel program runs its three concatenations and its one pipelined region to the end and
  writes only the concatenations' results and the two result arrays; the reference is a straight line of host
  operations.  The idealization rewrote nothing, so `preserves` is trivial.
-/
import proofs.«122981_j1090921693307_1_alg».proof.Defs
import proofs.«122981_j1090921693307_1_alg».proof.Proof.Gen.Kernel
import proofs.«122981_j1090921693307_1_alg».proof.Proof.Gen.KernelIdeal
import proofs.«122981_j1090921693307_1_alg».proof.Proof.Gen.ReferenceIdeal
import proofs.«122981_j1090921693307_1_alg».proof.Proof.Gen.ReferenceIdeal.Run
import proofs.«122981_j1090921693307_1_alg».proof.Proof.Gen.ReferenceIdeal.Read
import proofs.«122981_j1090921693307_1_alg».proof.Proof.Gen.Pre_finite_inputs
import proofs.«122981_j1090921693307_1_alg».proof.Proof.BitsFrame
import proofs.«122981_j1090921693307_1_alg».proof.Proof.IdealFrame
import proofs.«122981_j1090921693307_1_alg».proof.Proof.IdealValue
import proofs.«122981_j1090921693307_1_alg».proof.Proof.RefSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Frm.frame m ρ

theorem frame_kernelIdeal : Cert.frame_KernelIdeal := fun m ρ _ => Cert.KernelIdeal.Frm.frame m ρ

theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the fifteen arguments both programs end with the specification's hidden and cell arrays
    of those arguments. -/
theorem algebraic : Cert.algebraic_KernelIdeal_ReferenceIdeal := by
  intro m ρ m' ρ' _ hagree
  refine ⟨fun c => Cert.KernelIdeal.Val.hidOf m c, fun c => Cert.KernelIdeal.Val.cellOf m c, Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [Cert.ReferenceIdeal.Read.val_main_v36_eq, Cert.ReferenceIdeal.RefSpec.ref_hid,
      a0, a1, a2, a3, a4, a5, a6, a7, a8, a9, a10, a11, a12, a13, a14]
    rfl
  · obtain ⟨a0, a1, a2, a3, a4, a5, a6, a7, a8, a9, a10, a11, a12, a13, a14⟩ := hagree c
    rw [Cert.ReferenceIdeal.Read.val_main_v34_eq, Cert.ReferenceIdeal.RefSpec.ref_cell,
      a0, a1, a2, a3, a4, a5, a6, a7, a8, a9, a10, a11, a12, a13, a14]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
